-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x64 : Shape := ⟨3, ![8192, 64, 64]⟩
abbrev S8192x8x24 : Shape := ⟨3, ![8192, 8, 24]⟩
abbrev S4288x1858 : Shape := ⟨2, ![4288, 1858]⟩
abbrev S_ : Shape := ⟨0, ![]⟩

class Facts : Prop where
  bcast_S_S8192x64x64 : S_.BroadcastsInDim S8192x64x64 (![] : Fin 0 → Fin S8192x64x64.rank)
  reducesTo_S8192x64x64_S_d0_1_2 : S8192x64x64.ReducesTo [0, 1, 2] S_
  h_S_ : 0 < S_.numel
  bcast_S_S8192x8x24 : S_.BroadcastsInDim S8192x8x24 (![] : Fin 0 → Fin S8192x8x24.rank)
  reducesTo_S8192x8x24_S_d0_1_2 : S8192x8x24.ReducesTo [0, 1, 2] S_
  bcast_S_S4288x1858 : S_.BroadcastsInDim S4288x1858 (![] : Fin 0 → Fin S4288x1858.rank)
  reducesTo_S4288x1858_S_d0_1 : S4288x1858.ReducesTo [0, 1] S_

variable [Facts]

def fn {F : FTy → Type} [FloatOps F] (main_arg0 : FVec F S8192x64x64 .f32) (main_arg1 : FVec F S8192x8x24 .f32) (main_arg2 : FVec F S4288x1858 .f32) : IVec S_ 1 :=
  let main_v0 : FVec F S8192x64x64 .f32 := Host.absf main_arg0
  let main_cst : FVec F S_ .f32 := constant S_ .f32 0x7F800000#32
  let main_v1 : FVec F S8192x64x64 .f32 := broadcastInDim S8192x64x64 ![] bcast_S_S8192x64x64 main_cst
  let main_v2 : IVec S8192x64x64 1 := cmpf .olt main_v0 main_v1
  let main_c : IVec S_ 1 := constantI S_ 1 1#1
  let main_v3 : IVec S_ 1 := (fun x v => Host.reduce IntOp.andi x v reducesTo_S8192x64x64_S_d0_1_2 h_S_) main_v2 main_c
  let main_v4 : FVec F S8192x8x24 .f32 := Host.absf main_arg1
  let main_cst_0 : FVec F S_ .f32 := constant S_ .f32 0x7F800000#32
  let main_v5 : FVec F S8192x8x24 .f32 := broadcastInDim S8192x8x24 ![] bcast_S_S8192x8x24 main_cst_0
  let main_v6 : IVec S8192x8x24 1 := cmpf .olt main_v4 main_v5
  let main_c_1 : IVec S_ 1 := constantI S_ 1 1#1
  let main_v7 : IVec S_ 1 := (fun x v => Host.reduce IntOp.andi x v reducesTo_S8192x8x24_S_d0_1_2 h_S_) main_v6 main_c_1
  let main_v8 : IVec S_ 1 := andi main_v3 main_v7
  let main_v9 : FVec F S4288x1858 .f32 := Host.absf main_arg2
  let main_cst_2 : FVec F S_ .f32 := constant S_ .f32 0x7F800000#32
  let main_v10 : FVec F S4288x1858 .f32 := broadcastInDim S4288x1858 ![] bcast_S_S4288x1858 main_cst_2
  let main_v11 : IVec S4288x1858 1 := cmpf .olt main_v9 main_v10
  let main_c_3 : IVec S_ 1 := constantI S_ 1 1#1
  let main_v12 : IVec S_ 1 := (fun x v => Host.reduce IntOp.andi x v reducesTo_S4288x1858_S_d0_1 h_S_) main_v11 main_c_3
  let main_v13 : IVec S_ 1 := andi main_v8 main_v12
  main_v13
-- ==== Kernel.lean ====
abbrev S8192x64x64 : Shape := ⟨3, ![8192, 64, 64]⟩
abbrev S8192x8x24 : Shape := ⟨3, ![8192, 8, 24]⟩
abbrev S4288x1858 : Shape := ⟨2, ![4288, 1858]⟩
abbrev S8192x4096 : Shape := ⟨2, ![8192, 4096]⟩
abbrev S8192x192 : Shape := ⟨2, ![8192, 192]⟩
abbrev S4096x1858 : Shape := ⟨2, ![4096, 1858]⟩
abbrev S192x1858 : Shape := ⟨2, ![192, 1858]⟩
abbrev S8192x1858 : Shape := ⟨2, ![8192, 1858]⟩
abbrev S256x4096 : Shape := ⟨2, ![256, 4096]⟩
abbrev S256x192 : Shape := ⟨2, ![256, 192]⟩
abbrev S256x1858 : Shape := ⟨2, ![256, 1858]⟩

abbrev nBuf : Space → Nat
  | .hbm => 10
  | .vmem => 8
  | .smem => 0
  | _ => 0

abbrev bufTy : (tb : Table) → Fin (tcTables nBuf tb) → BufTy
  | .hbm, ⟨0, _⟩ => ⟨S8192x64x64, .f32⟩
  | .hbm, ⟨1, _⟩ => ⟨S8192x8x24, .f32⟩
  | .hbm, ⟨2, _⟩ => ⟨S4288x1858, .f32⟩
  | .hbm, ⟨3, _⟩ => ⟨S8192x4096, .f32⟩
  | .hbm, ⟨4, _⟩ => ⟨S8192x192, .f32⟩
  | .hbm, ⟨5, _⟩ => ⟨S4096x1858, .f32⟩
  | .hbm, ⟨6, _⟩ => ⟨S4096x1858, .bf16⟩
  | .hbm, ⟨7, _⟩ => ⟨S192x1858, .f32⟩
  | .hbm, ⟨8, _⟩ => ⟨S192x1858, .bf16⟩
  | .hbm, ⟨9, _⟩ => ⟨S8192x1858, .f32⟩
  | .local _ .vmem, ⟨0, _⟩ => ⟨S256x4096, .f32⟩
  | .local _ .vmem, ⟨1, _⟩ => ⟨S256x4096, .f32⟩
  | .local _ .vmem, ⟨2, _⟩ => ⟨S256x192, .f32⟩
  | .local _ .vmem, ⟨3, _⟩ => ⟨S256x192, .f32⟩
  | .local _ .vmem, ⟨4, _⟩ => ⟨S4096x1858, .bf16⟩
  | .local _ .vmem, ⟨5, _⟩ => ⟨S192x1858, .bf16⟩
  | .local _ .vmem, ⟨6, _⟩ => ⟨S256x1858, .f32⟩
  | .local _ .vmem, ⟨7, _⟩ => ⟨S256x1858, .f32⟩
  | _, _ => ⟨S8192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1858 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x1858 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1858 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192x64x64_S8192x4096 : S8192x64x64.ShapeCasts S8192x4096
  shapeCasts_S8192x8x24_S8192x192 : S8192x8x24.ShapeCasts S8192x192
  slices_S4288x1858_S4096x1858_0_0 : S4288x1858.Slices ![0, 0] S4096x1858
  bitsLt_bf16_f32 : FTy.bits .bf16 < FTy.bits .f32
  slices_S4288x1858_S192x1858_4096_0 : S4288x1858.Slices ![4096, 0] S192x1858
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S4096x1858_S4096x1858_0_0 : ∀ a, (![0, 0] : Fin 2 → Nat) a + S4096x1858.size a ≤ S4096x1858.size a
  h_S4096x1858 : 0 < S4096x1858.numel
  shapeCasts_S4096x1858_S4096x1858 : S4096x1858.ShapeCasts S4096x1858
  inb_S192x1858_S192x1858_0_0 : ∀ a, (![0, 0] : Fin 2 → Nat) a + S192x1858.size a ≤ S192x1858.size a
  h_S192x1858 : 0 < S192x1858.numel
  shapeCasts_S192x1858_S192x1858 : S192x1858.ShapeCasts S192x1858
  inb_S256x1858_S256x1858_0_0 : ∀ a, (![0, 0] : Fin 2 → Nat) a + S256x1858.size a ≤ S256x1858.size a
  h_S256x1858 : 0 < S256x1858.numel
  dot_S256x4096_S4096x1858_S256x1858_1_0_0_1_n_n_wf : DotDims.WF S256x4096 S4096x1858 S256x1858 [1] [0] [0] [1] [] []
  dot_S256x192_S192x1858_S256x1858_1_0_0_1_n_n_wf : DotDims.WF S256x192 S192x1858 S256x1858 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x192.size a ≤ S8192x192.size a
  hwx0_1 : ∀ i : grid0.Coords, EltTy.bits .f32 = 32 ∨ (Rect.block (s := S8192x192) S256x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1858.size a ≤ S4096x1858.size a
  hwx0_2 : ∀ i : grid0.Coords, EltTy.bits .bf16 = 32 ∨ (Rect.block (s := S4096x1858) S4096x1858.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x1858.size a ≤ S192x1858.size a
  hwx0_3 : ∀ i : grid0.Coords, EltTy.bits .bf16 = 32 ∨ (Rect.block (s := S192x1858) S192x1858.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1858.size a ≤ S8192x1858.size a
  hwx0_4 : ∀ i : grid0.Coords, EltTy.bits .f32 = 32 ∨ (Rect.block (s := S8192x1858) S256x1858.size (cc0_transform_4 i) (hinb0_4 i)).WholeWords (EltTy.packing .f32)

variable [Facts₀]

def dot_S256x4096_S4096x1858_S256x1858_1_0_0_1_n_n : DotDims S256x4096 S4096x1858 S256x1858 where
  lhsContracting := [1]
  rhsContracting := [0]
  lhsNonContracting := [0]
  rhsNonContracting := [1]
  lhsBatch := []
  rhsBatch := []
  wf := dot_S256x4096_S4096x1858_S256x1858_1_0_0_1_n_n_wf
def dot_S256x192_S192x1858_S256x1858_1_0_0_1_n_n : DotDims S256x192 S192x1858 S256x1858 where
  lhsContracting := [1]
  rhsContracting := [0]
  lhsNonContracting := [0]
  rhsNonContracting := [1]
  lhsBatch := []
  rhsBatch := []
  wf := dot_S256x192_S192x1858_S256x1858_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x1858.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S192x1858.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x1858.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64x64 : Shape := ⟨3, ![8192, 64, 64]⟩
abbrev S8192x8x24 : Shape := ⟨3, ![8192, 8, 24]⟩
abbrev S4288x1858 : Shape := ⟨2, ![4288, 1858]⟩
abbrev S8192x4096 : Shape := ⟨2, ![8192, 4096]⟩
abbrev S8192x192 : Shape := ⟨2, ![8192, 192]⟩
abbrev S8192x4288 : Shape := ⟨2, ![8192, 4288]⟩
abbrev S8192x1858 : Shape := ⟨2, ![8192, 1858]⟩

abbrev nBuf : Space → Nat
  | .hbm => 7
  | .vmem => 0
  | .smem => 0
  | _ => 0

abbrev bufTy : (tb : Table) → Fin (tcTables nBuf tb) → BufTy
  | .hbm, ⟨0, _⟩ => ⟨S8192x64x64, .f32⟩
  | .hbm, ⟨1, _⟩ => ⟨S8192x8x24, .f32⟩
  | .hbm, ⟨2, _⟩ => ⟨S4288x1858, .f32⟩
  | .hbm, ⟨3, _⟩ => ⟨S8192x4096, .f32⟩
  | .hbm, ⟨4, _⟩ => ⟨S8192x192, .f32⟩
  | .hbm, ⟨5, _⟩ => ⟨S8192x4288, .f32⟩
  | .hbm, ⟨6, _⟩ => ⟨S8192x1858, .f32⟩
  | _, _ => ⟨S8192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S8192x64x64_S8192x4096 : S8192x64x64.ShapeCasts S8192x4096
  shapeCasts_S8192x8x24_S8192x192 : S8192x8x24.ShapeCasts S8192x192
  concatenates_S8192x4096_S8192x192_S8192x4288_d1 : Shape.Concatenates [S8192x4096, S8192x192] S8192x4288 1
  dot_S8192x4288_S4288x1858_S8192x1858_1_0_0_1_n_n_wf : DotDims.WF S8192x4288 S4288x1858 S8192x1858 [1] [0] [0] [1] [] []

variable [Facts₀]

def dot_S8192x4288_S4288x1858_S8192x1858_1_0_0_1_n_n : DotDims S8192x4288 S4288x1858 S8192x1858 where
  lhsContracting := [1]
  rhsContracting := [0]
  lhsNonContracting := [0]
  rhsNonContracting := [1]
  lhsBatch := []
  rhsBatch := []
  wf := dot_S8192x4288_S4288x1858_S8192x1858_1_0_0_1_n_n_wf

class Facts : Prop extends Facts₀ where

variable [Facts]
-- ==== Proof.PolicySum.lean ====
/-
  The value both programs compute, as ONE function of the arrays, index by index over the extended reals.

  With A : [8192, 4096] (the move logits, each board's 64×64 table laid out as one row), P : [8192, 192] (the
  promotion logits, 8×24 as one row) and W : [4288, 1858] (the policy map):

      out[b, n] = Σ_{k < 4096} A[b, k] · W[k, n]  +  Σ_{k < 192} P[b, k] · W[4096 + k, n].

  The reference contracts the joined row (A[b, ·] followed by P[b, ·], 4288 entries) against W in one sum; the
  kernel contracts A against the first 4096 rows of W and P against the last 192 rows and adds the two products.
  The two agree because a finite sum over 4288 = 4096 + 192 indices splits into the sum over the first 4096 and
  the sum over the remaining 192 (`sum_split`): only commutativity and associativity of addition, which hold on
  all of the extended reals, so no finiteness of the inputs is used.
-/
import Idealize.ShloMosaic.PureOps.Ideal
import Idealize.ShloMosaic.Lib.ValueIdx
import Idealize.ShloMosaic.Lib.ValueLayout
import Idealize.ShloMosaic.Lib.Pipeline.Value
import Mathlib.Algebra.BigOperators.Fin

noncomputable section

namespace Cert.PolicySum

open Idealize.ShloMosaic Idealize.ShloMosaic.ValueIdx
open scoped BigOperators

/-- A sum over 4288 indices is the sum over the first 4096 plus the sum over the last 192. -/
theorem sum_split {M : Type*} [AddCommMonoid M] (f : Fin 4288 → M) :
    ∑ k : Fin 4288, f k
      = (∑ k : Fin 4096, f ⟨k.val, by omega⟩) + ∑ k : Fin 192, f ⟨4096 + k.val, by omega⟩ :=
  Fin.sum_univ_add (a := 4096) (b := 192) f

/-- The policy output with the map given whole: row `b` of A against rows 0‥4095 of W, plus row `b` of P against
    rows 4096‥4287 of W. -/
def policyOut (A : (⟨2, ![8192, 4096]⟩ : Shape).Idx → EReal) (P : (⟨2, ![8192, 192]⟩ : Shape).Idx → EReal)
    (W : (⟨2, ![4288, 1858]⟩ : Shape).Idx → EReal) : (⟨2, ![8192, 1858]⟩ : Shape).Idx → EReal := fun i =>
  (∑ k : Fin 4096, A (ix2 (i 0 : Fin 8192) k) * W (ix2 (⟨k.val, by omega⟩ : Fin 4288) (i 1 : Fin 1858)))
    + ∑ k : Fin 192, P (ix2 (i 0 : Fin 8192) k) * W (ix2 (⟨4096 + k.val, by omega⟩ : Fin 4288) (i 1 : Fin 1858))

/-- The same with the map given as its two row bands: Wa its first 4096 rows, Wb its last 192. -/
def policyOutBands (A : (⟨2, ![8192, 4096]⟩ : Shape).Idx → EReal) (P : (⟨2, ![8192, 192]⟩ : Shape).Idx → EReal)
    (Wa : (⟨2, ![4096, 1858]⟩ : Shape).Idx → EReal) (Wb : (⟨2, ![192, 1858]⟩ : Shape).Idx → EReal) :
    (⟨2, ![8192, 1858]⟩ : Shape).Idx → EReal := fun i =>
  (∑ k : Fin 4096, A (ix2 (i 0 : Fin 8192) k) * Wa (ix2 k (i 1 : Fin 1858)))
    + ∑ k : Fin 192, P (ix2 (i 0 : Fin 8192) k) * Wb (ix2 k (i 1 : Fin 1858))

/-- When the two bands are the slices of W from row 0 and from row 4096, the banded form is the whole form:
    band a's row k is W's row k, band b's row k is W's row 4096 + k. -/
theorem policyOutBands_slices (A : (⟨2, ![8192, 4096]⟩ : Shape).Idx → EReal) (P : (⟨2, ![8192, 192]⟩ : Shape).Idx → EReal)
    (W : (⟨2, ![4288, 1858]⟩ : Shape).Idx → EReal)
    (ha : (⟨2, ![4288, 1858]⟩ : Shape).Slices ![0, 0] ⟨2, ![4096, 1858]⟩)
    (hb : (⟨2, ![4288, 1858]⟩ : Shape).Slices ![4096, 0] ⟨2, ![192, 1858]⟩) :
    policyOutBands A P (extractStridedSlice ⟨2, ![4096, 1858]⟩ ![0, 0] W ha)
      (extractStridedSlice ⟨2, ![192, 1858]⟩ ![4096, 0] W hb) = policyOut A P W := by
  funext i
  unfold policyOutBands policyOut
  congr 1
  · refine Finset.sum_congr rfl fun k _ => ?_
    rw [slice2_axis0_apply 0 W ha k (i 1 : Fin 1858) (⟨k.val, by omega⟩ : Fin 4288) (Nat.zero_add _).symm]
  · refine Finset.sum_congr rfl fun k _ => ?_
    rw [slice2_axis0_apply 4096 W hb k (i 1 : Fin 1858) (⟨4096 + k.val, by omega⟩ : Fin 4288) rfl]

end Cert.PolicySum

end
-- ==== Proof.RefValue.lean ====
/-
  The reference's result, index by index, is the policy output `Cert.PolicySum.policyOut`.

  The reference joins each board's 4096 move logits and 192 promotion logits into one row of 4288 entries and
  contracts that row against the policy map: out[b, n] = Σ_{k < 4288} J[b, k] · W[k, n]. Entry k of the joined row is
  the move logit k when k < 4096 and the promotion logit k − 4096 otherwise, so splitting the sum at 4096 gives
  Σ_{k < 4096} A[b, k] · W[k, n] + Σ_{k < 192} P[b, k] · W[4096 + k, n], with A and P the two reshaped inputs.
-/
import proofs.«168001_j39608188404137_1_alg».proof.Proof.Gen.ReferenceIdeal.Read
import proofs.«168001_j39608188404137_1_alg».proof.Proof.PolicySum

noncomputable section

namespace Cert.ReferenceIdeal.RefValue

open Cert.ReferenceIdeal Cert.ReferenceIdeal.Gen Cert.ReferenceIdeal.Read
open Idealize.ShloMosaic Idealize.ShloMosaic.ValueIdx Cert.PolicySum
open scoped BigOperators

/-- The left operand's index of the contraction at output (b, n) and position k is (b, k). -/
theorem lidx_eq (i : S8192x1858.Idx) (k : Fin 4288) : lidx_main_v3 i k = ix2 (i 0 : Fin 8192) k :=
  funext fun a => match a with | ⟨0, _⟩ => rfl | ⟨1, _⟩ => rfl

/-- The right operand's index there is (k, n). -/
theorem ridx_eq (i : S8192x1858.Idx) (k : Fin 4288) : ridx_main_v3 i k = ix2 k (i 1 : Fin 1858) :=
  funext fun a => match a with | ⟨0, _⟩ => rfl | ⟨1, _⟩ => rfl

/-- The joined row at a position below 4096 is the reshaped move logits at that position. -/
theorem joined_left (x0 : (⟨S8192x64x64, .f32⟩ : BufTy).Contents (Elt Ideal)) (x1 : (⟨S8192x8x24, .f32⟩ : BufTy).Contents (Elt Ideal))
    (b : Fin 8192) (k : Fin 4096) :
    val_main_v2 (F := Ideal) x0 x1 (ix2 b (⟨k.val, by omega⟩ : Fin 4288)) = val_main_v0 (F := Ideal) x0 (ix2 b k) := by
  unfold val_main_v2
  exact concatenate_pair_apply_left (1 : Fin S8192x4288.rank) _ _ concatenates_S8192x4096_S8192x192_S8192x4288_d1 _ rfl (ix2 b k)
    (fun a => match a with | ⟨0, _⟩ => rfl | ⟨1, _⟩ => rfl)

/-- The joined row at position 4096 + k is the reshaped promotion logits at position k. -/
theorem joined_right (x0 : (⟨S8192x64x64, .f32⟩ : BufTy).Contents (Elt Ideal)) (x1 : (⟨S8192x8x24, .f32⟩ : BufTy).Contents (Elt Ideal))
    (b : Fin 8192) (k : Fin 192) :
    val_main_v2 (F := Ideal) x0 x1 (ix2 b (⟨4096 + k.val, by omega⟩ : Fin 4288)) = val_main_v1 (F := Ideal) x1 (ix2 b k) := by
  unfold val_main_v2
  refine concatenate_pair_apply_right (1 : Fin S8192x4288.rank) _ _ concatenates_S8192x4096_S8192x192_S8192x4288_d1 _ rfl rfl (ix2 b k) ?_ ?_
  · intro a
    match a with
    | ⟨0, _⟩ => intro _; rfl
    | ⟨1, _⟩ => intro h; exact absurd rfl h
  · show k.val + 4096 = 4096 + k.val
    omega

/-- The reference's result is the policy output of the two reshaped inputs and the policy map. -/
theorem result_eq (x0 : (⟨S8192x64x64, .f32⟩ : BufTy).Contents (Elt Ideal)) (x1 : (⟨S8192x8x24, .f32⟩ : BufTy).Contents (Elt Ideal))
    (x2 : (⟨S4288x1858, .f32⟩ : BufTy).Contents (Elt Ideal)) :
    val_main_v3 (F := Ideal) x0 x1 x2 = policyOut (val_main_v0 (F := Ideal) x0) (val_main_v1 (F := Ideal) x1) x2 := by
  funext i
  rw [val_main_v3_apply, sum_split]
  unfold policyOut
  refine congrArg₂ (· + ·) (Finset.sum_congr rfl fun k _ => ?_) (Finset.sum_congr rfl fun k _ => ?_)
  · rw [lidx_eq, ridx_eq]
    exact congrArg (· * _) (joined_left x0 x1 (i 0 : Fin 8192) k)
  · rw [lidx_eq, ridx_eq]
    exact congrArg (· * _) (joined_right x0 x1 (i 0 : Fin 8192) k)

end Cert.ReferenceIdeal.RefValue

end
-- ==== Proof.KernelPayload.lean ====
/-
  The kernel body's arithmetic at one output entry.

  On a tile of 256 boards the body multiplies the tile's move logits (256 × 4096) by the first band of the policy
  map (4096 × 1858), the tile's promotion logits (256 × 192) by the second band (192 × 1858), each product
  accumulated from zero, and adds the two. The narrowing of the logits to the 16-bit format before each product is
  the identity on the extended reals, and a product accumulated from zero is the plain sum over the contracted
  index. So entry (p, q) of what the body stores is

      Σ_{k < 4096} L[p, k] · Wa[k, q]  +  Σ_{k < 192} R[p, k] · Wb[k, q].
-/
import proofs.«168001_j39608188404137_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen
open Idealize.ShloMosaic Idealize.ShloMosaic.ValueIdx
open scoped BigOperators

/-! ## The operand indices of the two products: output (p, q), contracted position k ↦ (p, k) and (k, q) -/

theorem lhs_move_0 (i : S256x1858.Idx) (q : dot_S256x4096_S4096x1858_S256x1858_1_0_0_1_n_n.contr.Idx) :
    (dot_S256x4096_S4096x1858_S256x1858_1_0_0_1_n_n.lhsIdx i q 0).val = (i 0).val := by
  unfold DotDims.lhsIdx
  rw [dif_neg (show ¬(0 : Fin S256x4096.rank) ∈ dot_S256x4096_S4096x1858_S256x1858_1_0_0_1_n_n.lhsBatch by decide), dif_pos (show (0 : Fin S256x4096.rank) ∈ dot_S256x4096_S4096x1858_S256x1858_1_0_0_1_n_n.lhsNonContracting by decide)]
  rfl
theorem lhs_move_1 (i : S256x1858.Idx) (q : dot_S256x4096_S4096x1858_S256x1858_1_0_0_1_n_n.contr.Idx) :
    (dot_S256x4096_S4096x1858_S256x1858_1_0_0_1_n_n.lhsIdx i q 1).val = (q ⟨0, by decide⟩).val :=
  dot_S256x4096_S4096x1858_S256x1858_1_0_0_1_n_n.lhsIdx_val_of_single rfl i q
theorem rhs_move_0 (i : S256x1858.Idx) (q : dot_S256x4096_S4096x1858_S256x1858_1_0_0_1_n_n.contr.Idx) :
    (dot_S256x4096_S4096x1858_S256x1858_1_0_0_1_n_n.rhsIdx i q 0).val = (q ⟨0, by decide⟩).val :=
  dot_S256x4096_S4096x1858_S256x1858_1_0_0_1_n_n.rhsIdx_val_of_single rfl i q
theorem rhs_move_1 (i : S256x1858.Idx) (q : dot_S256x4096_S4096x1858_S256x1858_1_0_0_1_n_n.contr.Idx) :
    (dot_S256x4096_S4096x1858_S256x1858_1_0_0_1_n_n.rhsIdx i q 1).val = (i 1).val := by
  unfold DotDims.rhsIdx
  rw [dif_neg (show ¬(1 : Fin S4096x1858.rank) ∈ dot_S256x4096_S4096x1858_S256x1858_1_0_0_1_n_n.rhsBatch by decide), dif_pos (show (1 : Fin S4096x1858.rank) ∈ dot_S256x4096_S4096x1858_S256x1858_1_0_0_1_n_n.rhsNonContracting by decide)]
  rfl

theorem lhs_promo_0 (i : S256x1858.Idx) (q : dot_S256x192_S192x1858_S256x1858_1_0_0_1_n_n.contr.Idx) :
    (dot_S256x192_S192x1858_S256x1858_1_0_0_1_n_n.lhsIdx i q 0).val = (i 0).val := by
  unfold DotDims.lhsIdx
  rw [dif_neg (show ¬(0 : Fin S256x192.rank) ∈ dot_S256x192_S192x1858_S256x1858_1_0_0_1_n_n.lhsBatch by decide), dif_pos (show (0 : Fin S256x192.rank) ∈ dot_S256x192_S192x1858_S256x1858_1_0_0_1_n_n.lhsNonContracting by decide)]
  rfl
theorem lhs_promo_1 (i : S256x1858.Idx) (q : dot_S256x192_S192x1858_S256x1858_1_0_0_1_n_n.contr.Idx) :
    (dot_S256x192_S192x1858_S256x1858_1_0_0_1_n_n.lhsIdx i q 1).val = (q ⟨0, by decide⟩).val :=
  dot_S256x192_S192x1858_S256x1858_1_0_0_1_n_n.lhsIdx_val_of_single rfl i q
theorem rhs_promo_0 (i : S256x1858.Idx) (q : dot_S256x192_S192x1858_S256x1858_1_0_0_1_n_n.contr.Idx) :
    (dot_S256x192_S192x1858_S256x1858_1_0_0_1_n_n.rhsIdx i q 0).val = (q ⟨0, by decide⟩).val :=
  dot_S256x192_S192x1858_S256x1858_1_0_0_1_n_n.rhsIdx_val_of_single rfl i q
theorem rhs_promo_1 (i : S256x1858.Idx) (q : dot_S256x192_S192x1858_S256x1858_1_0_0_1_n_n.contr.Idx) :
    (dot_S256x192_S192x1858_S256x1858_1_0_0_1_n_n.rhsIdx i q 1).val = (i 1).val := by
  unfold DotDims.rhsIdx
  rw [dif_neg (show ¬(1 : Fin S192x1858.rank) ∈ dot_S256x192_S192x1858_S256x1858_1_0_0_1_n_n.rhsBatch by decide), dif_pos (show (1 : Fin S192x1858.rank) ∈ dot_S256x192_S192x1858_S256x1858_1_0_0_1_n_n.rhsNonContracting by decide)]
  rfl

/-! ## Each product, accumulated from zero, at an output entry -/

/-- The move-logit product at (p, q): the sum over the 4096 move positions. -/
theorem move_product (l : FVec Ideal S256x4096 .bf16) (r : FVec Ideal S4096x1858 .bf16) (i : S256x1858.Idx) :
    matmul dot_S256x4096_S4096x1858_S256x1858_1_0_0_1_n_n none l r (constant (F := Ideal) S256x1858 .f32 0x00000000#32) i
      = ∑ k : Fin 4096, l (ix2 (i 0 : Fin 256) k) * r (ix2 k (i 1 : Fin 1858)) := by
  simp only [matmul]
  rw [Ideal.matmul_constant_zero_apply, ← Equiv.sum_comp (contrEquiv1 dot_S256x4096_S4096x1858_S256x1858_1_0_0_1_n_n 4096 rfl rfl).symm]
  refine Finset.sum_congr rfl fun k _ => ?_
  have hk := contrEquiv1_symm_val dot_S256x4096_S4096x1858_S256x1858_1_0_0_1_n_n 4096 rfl rfl k
  have el : dot_S256x4096_S4096x1858_S256x1858_1_0_0_1_n_n.lhsIdx i ((contrEquiv1 dot_S256x4096_S4096x1858_S256x1858_1_0_0_1_n_n 4096 rfl rfl).symm k) = ix2 (i 0 : Fin 256) k := funext fun a => Fin.ext (by
    match a with
    | ⟨0, _⟩ => exact lhs_move_0 _ _
    | ⟨1, _⟩ => exact (lhs_move_1 _ _).trans hk)
  have er : dot_S256x4096_S4096x1858_S256x1858_1_0_0_1_n_n.rhsIdx i ((contrEquiv1 dot_S256x4096_S4096x1858_S256x1858_1_0_0_1_n_n 4096 rfl rfl).symm k) = ix2 k (i 1 : Fin 1858) := funext fun a => Fin.ext (by
    match a with
    | ⟨0, _⟩ => exact (rhs_move_0 _ _).trans hk
    | ⟨1, _⟩ => exact rhs_move_1 _ _)
  rw [el, er]
  rfl

/-- The promotion-logit product at (p, q): the sum over the 192 promotion positions. -/
theorem promo_product (l : FVec Ideal S256x192 .bf16) (r : FVec Ideal S192x1858 .bf16) (i : S256x1858.Idx) :
    matmul dot_S256x192_S192x1858_S256x1858_1_0_0_1_n_n none l r (constant (F := Ideal) S256x1858 .f32 0x00000000#32) i
      = ∑ k : Fin 192, l (ix2 (i 0 : Fin 256) k) * r (ix2 k (i 1 : Fin 1858)) := by
  simp only [matmul]
  rw [Ideal.matmul_constant_zero_apply, ← Equiv.sum_comp (contrEquiv1 dot_S256x192_S192x1858_S256x1858_1_0_0_1_n_n 192 rfl rfl).symm]
  refine Finset.sum_congr rfl fun k _ => ?_
  have hk := contrEquiv1_symm_val dot_S256x192_S192x1858_S256x1858_1_0_0_1_n_n 192 rfl rfl k
  have el : dot_S256x192_S192x1858_S256x1858_1_0_0_1_n_n.lhsIdx i ((contrEquiv1 dot_S256x192_S192x1858_S256x1858_1_0_0_1_n_n 192 rfl rfl).symm k) = ix2 (i 0 : Fin 256) k := funext fun a => Fin.ext (by
    match a with
    | ⟨0, _⟩ => exact lhs_promo_0 _ _
    | ⟨1, _⟩ => exact (lhs_promo_1 _ _).trans hk)
  have er : dot_S256x192_S192x1858_S256x1858_1_0_0_1_n_n.rhsIdx i ((contrEquiv1 dot_S256x192_S192x1858_S256x1858_1_0_0_1_n_n 192 rfl rfl).symm k) = ix2 k (i 1 : Fin 1858) := funext fun a => Fin.ext (by
    match a with
    | ⟨0, _⟩ => exact (rhs_promo_0 _ _).trans hk
    | ⟨1, _⟩ => exact rhs_promo_1 _ _)
  rw [el, er]
  rfl

/-! ## The stored value -/

/-- What the body stores is the sum of the two products of the narrowed tiles with the two bands. -/
theorem stored_eq (x0 : Vec Ideal S256x4096 .f32) (x1 : Vec Ideal S256x192 .f32) (x2 : Vec Ideal S4096x1858 .bf16) (x3 : Vec Ideal S192x1858 .bf16) :
    k0_pay1 (F := Ideal) x0 x1 x2 x3
      = addf (matmul (φ₁ := .bf16) (φ₂ := .bf16) dot_S256x4096_S4096x1858_S256x1858_1_0_0_1_n_n none (truncf .bf16 (shapeCast S256x4096 x0 shapeCasts_S256x4096_S256x4096) bitsLt_bf16_f32)
                (shapeCast S4096x1858 x2 shapeCasts_S4096x1858_S4096x1858) (constant (F := Ideal) S256x1858 .f32 0x00000000#32))
             (matmul (φ₁ := .bf16) (φ₂ := .bf16) dot_S256x192_S192x1858_S256x1858_1_0_0_1_n_n none (truncf .bf16 (shapeCast S256x192 x1 shapeCasts_S256x192_S256x192) bitsLt_bf16_f32)
                (shapeCast S192x1858 x3 shapeCasts_S192x1858_S192x1858) (constant (F := Ideal) S256x1858 .f32 0x00000000#32)) := rfl

/-- Entry (p, q) of the stored tile: the move-logit sum plus the promotion-logit sum. -/
theorem stored_apply (x0 : Vec Ideal S256x4096 .f32) (x1 : Vec Ideal S256x192 .f32) (x2 : Vec Ideal S4096x1858 .bf16) (x3 : Vec Ideal S192x1858 .bf16)
    (i : S256x1858.Idx) :
    k0_pay1 (F := Ideal) x0 x1 x2 x3 i
      = (∑ k : Fin 4096, x0 (ix2 (i 0 : Fin 256) k) * x2 (ix2 k (i 1 : Fin 1858)))
        + ∑ k : Fin 192, x1 (ix2 (i 0 : Fin 256) k) * x3 (ix2 k (i 1 : Fin 1858)) := by
  rw [stored_eq, addf_apply, move_product, promo_product]
  simp only [truncf_apply, shapeCast_self]

end Cert.KernelIdeal.Payload

end
-- ==== Proof.KernelValue.lean ====
/-
  The kernel's result array, whole: after the run it holds the policy output of the arrays the region finds.

  The grid has 32 points; point t works on boards 256·t ‥ 256·t + 255. It reads rows 256·t ‥ of the move logits
  (all 4096 columns) and of the promotion logits (all 192 columns), both bands of the policy map whole, and
  writes rows 256·t ‥ of the result (all 1858 columns). Entry (p, q) of the tile it writes is the move-logit sum
  plus the promotion-logit sum for board 256·t + p and policy output q, which is entry (256·t + p, q) of the
  banded policy output. The 32 tiles cover the result's 8192 rows (row r lies in tile r / 256), so the whole result
  array is the banded policy output.
-/
import proofs.«168001_j39608188404137_1_alg».proof.Proof.Gen.KernelIdeal.Value
import proofs.«168001_j39608188404137_1_alg».proof.Proof.KernelPayload
import proofs.«168001_j39608188404137_1_alg».proof.Proof.PolicySum

set_option maxRecDepth 16384

noncomputable section

namespace Cert.KernelIdeal.PolicyValue

open Cert.KernelIdeal Cert.KernelIdeal.Gen Cert.KernelIdeal.Payload Cert.PolicySum
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

theorem offsets_zero : (![0, 0] : Fin 2 → Nat) = fun _ => 0 := funext fun a => by fin_cases a <;> rfl

/-- Where each window's tile sits at point t: the two logit windows and the result move together along the rows
    (tile row index t), every window starts at column tile 0, and the two bands of the map are always tile (0, 0). -/
theorem tile_indices : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each input tile read at an entry, in the coordinates of the result's tile -/

/-- Row p, column k of the move-logit tile at point t is the move logits at the result tile's row and column k. -/
theorem read_moves (c : Dev nD) (t : Fin cfg0.N) (j : S256x1858.Idx) (k : Fin 4096) :
    iblk m c 0 t (ix2 (j 0 : Fin 256) k)
      = V m c main_v0 (ix2 ((((cfg0.win 4).blk t).view.emb j) 0 : Fin 8192) k) := by
  obtain ⟨e0, e1, -, -, -, -, -, -, -, -⟩ := tile_indices t
  show V m c main_v0 (((cfg0.win 0).blk t).view.emb (ix2 (j 0 : Fin 256) k)) = _
  refine congrArg (V m c main_v0) (funext fun a => Fin.ext ?_)
  match a with
  | ⟨0, _⟩ => show win0_0.index t (0 : Fin 2) * 256 + 1 * (j 0).val = win0_4.index t (0 : Fin 2) * 256 + 1 * (j 0).val; omega
  | ⟨1, _⟩ => show win0_0.index t (1 : Fin 2) * 4096 + 1 * k.val = k.val; omega

/-- Row p, column k of the promotion-logit tile at point t, likewise. -/
theorem read_promos (c : Dev nD) (t : Fin cfg0.N) (j : S256x1858.Idx) (k : Fin 192) :
    iblk m c 1 t (ix2 (j 0 : Fin 256) k)
      = V m c main_v1 (ix2 ((((cfg0.win 4).blk t).view.emb j) 0 : Fin 8192) k) := by
  obtain ⟨-, -, e2, e3, -, -, -, -, -, -⟩ := tile_indices t
  show V m c main_v1 (((cfg0.win 1).blk t).view.emb (ix2 (j 0 : Fin 256) k)) = _
  refine congrArg (V m c main_v1) (funext fun a => Fin.ext ?_)
  match a with
  | ⟨0, _⟩ => show win0_1.index t (0 : Fin 2) * 256 + 1 * (j 0).val = win0_4.index t (0 : Fin 2) * 256 + 1 * (j 0).val; omega
  | ⟨1, _⟩ => show win0_1.index t (1 : Fin 2) * 192 + 1 * k.val = k.val; omega

/-- The first band's tile is the band itself: row k, the result tile's column. -/
theorem read_bandA (c : Dev nD) (t : Fin cfg0.N) (j : S256x1858.Idx) (k : Fin 4096) :
    iblk m c 2 t (ix2 k (j 1 : Fin 1858))
      = V m c main_v3 (ix2 k ((((cfg0.win 4).blk t).view.emb j) 1 : Fin 1858)) := by
  obtain ⟨-, -, -, -, e4, e5, -, -, -, e9⟩ := tile_indices t
  show V m c main_v3 (((cfg0.win 2).blk t).view.emb (ix2 k (j 1 : Fin 1858))) = _
  refine congrArg (V m c main_v3) (funext fun a => Fin.ext ?_)
  match a with
  | ⟨0, _⟩ => show win0_2.index t (0 : Fin 2) * 4096 + 1 * k.val = k.val; omega
  | ⟨1, _⟩ => show win0_2.index t (1 : Fin 2) * 1858 + 1 * (j 1).val = win0_4.index t (1 : Fin 2) * 1858 + 1 * (j 1).val; omega

/-- The second band's tile is the band itself. -/
theorem read_bandB (c : Dev nD) (t : Fin cfg0.N) (j : S256x1858.Idx) (k : Fin 192) :
    iblk m c 3 t (ix2 k (j 1 : Fin 1858))
      = V m c main_v5 (ix2 k ((((cfg0.win 4).blk t).view.emb j) 1 : Fin 1858)) := by
  obtain ⟨-, -, -, -, -, -, e6, e7, -, e9⟩ := tile_indices t
  show V m c main_v5 (((cfg0.win 3).blk t).view.emb (ix2 k (j 1 : Fin 1858))) = _
  refine congrArg (V m c main_v5) (funext fun a => Fin.ext ?_)
  match a with
  | ⟨0, _⟩ => show win0_3.index t (0 : Fin 2) * 192 + 1 * k.val = k.val; omega
  | ⟨1, _⟩ => show win0_3.index t (1 : Fin 2) * 1858 + 1 * (j 1).val = win0_4.index t (1 : Fin 2) * 1858 + 1 * (j 1).val; omega

/-! ## What each point writes back, and the whole array -/

/-- Point t writes back tile t of the banded policy output of the arrays the region finds. -/
theorem flushed_eq (c : Dev nD) (t : Fin cfg0.N) :
    (dats m 0 c).flushed 4 t
      = ((cfg0.win 4).blk t).view.read (Elt Ideal)
          (policyOutBands (V m c main_v0) (V m c main_v1) (V m c main_v3) (V m c main_v5)) := by
  rw [Cert.KernelIdeal.Value.flushed4]
  unfold out0_4
  rw [View.canon_unit_zero offsets_zero]
  simp only [View.ld_unit_zero (S := S256x4096) offsets_zero, View.ld_unit_zero (S := S256x192) offsets_zero,
    View.ld_unit_zero (S := S4096x1858) offsets_zero, View.ld_unit_zero (S := S192x1858) offsets_zero]
  funext j
  show k0_pay1 (F := Ideal) (iblk m c 0 t) (iblk m c 1 t) (iblk m c 2 t) (iblk m c 3 t) j
    = policyOutBands (V m c main_v0) (V m c main_v1) (V m c main_v3) (V m c main_v5) (((cfg0.win 4).blk t).view.emb j)
  refine (stored_apply (iblk m c 0 t) (iblk m c 1 t) (iblk m c 2 t) (iblk m c 3 t) j).trans ?_
  unfold policyOutBands
  refine congrArg₂ (· + ·) (Finset.sum_congr rfl fun k _ => ?_) (Finset.sum_congr rfl fun k _ => ?_)
  · exact congrArg₂ (· * ·) (read_moves m c t j k) (read_bandA m c t j k)
  · exact congrArg₂ (· * ·) (read_promos m c t j k) (read_bandB m c t j k)

/-- An index of the result is in point t's tile iff each coordinate is in the tile's range on its axis. -/
theorem mem_tile (t : Fin cfg0.N) (i : S8192x1858.Idx) :
    i ∈ ((cfg0.win 4).blk t).view.set ↔ ∀ a : Fin 2, win0_4.index t a * S256x1858.size a ≤ (i a).val ∧ (i a).val < win0_4.index t a * S256x1858.size a + S256x1858.size a := by
  show i ∈ ((View.whole main_v6).slice (win0_4.rect t)).set ↔ _
  rw [View.set_slice_whole, Rect.mem_set_unit]
  exact Iff.rfl

/-- Every entry of the result lies in the tile of the point its row divided by 256 names. -/
theorem covered (i : S8192x1858.Idx) :
    ∃ t : Fin cfg0.N, (cfg0.win 4).flush t = true ∧ i ∈ ((cfg0.win 4).blk t).view.set := by
  have hi0 : (i 0).val < 8192 := (i 0).isLt
  have hi1 : (i 1).val < 1858 := (i 1).isLt
  have hN : grid0.N = 32 := N_0
  have hlt : (i 0).val / 256 < cfg0.N := by show (i 0).val / 256 < grid0.N; omega
  obtain ⟨-, -, -, -, -, -, -, -, e8, e9⟩ := tile_indices ⟨(i 0).val / 256, hlt⟩
  refine ⟨⟨(i 0).val / 256, hlt⟩, flush0_4 _, ?_⟩
  rw [mem_tile]
  intro a
  match a with
  | ⟨0, _⟩ =>
    show win0_4.index ⟨(i 0).val / 256, hlt⟩ (0 : Fin 2) * 256 ≤ (i 0).val ∧ (i 0).val < win0_4.index ⟨(i 0).val / 256, hlt⟩ (0 : Fin 2) * 256 + 256
    rw [e8]
    show (i 0).val / 256 * 256 ≤ (i 0).val ∧ (i 0).val < (i 0).val / 256 * 256 + 256
    omega
  | ⟨1, _⟩ =>
    show win0_4.index ⟨(i 0).val / 256, hlt⟩ (1 : Fin 2) * 1858 ≤ (i 1).val ∧ (i 1).val < win0_4.index ⟨(i 0).val / 256, hlt⟩ (1 : Fin 2) * 1858 + 1858
    omega

/-- The result array after the run is the banded policy output of the arrays the region finds. -/
theorem final (c : Dev nD) :
    (dats m 0 c).arrAt 4 cfg0.N = policyOutBands (V m c main_v0) (V m c main_v1) (V m c main_v3) (V m c main_v5) :=
  (dats m 0 c).arrAt_eq_of_cover 4 _ (fun t _ => flushed_eq m c t) covered

end Cert.KernelIdeal.PolicyValue

end
-- ==== Proof.KernelEntry.lean ====
/-
  The arrays the kernel's region finds, as functions of the program's arguments.

  Before the call the program reshapes the move logits [8192, 64, 64] to [8192, 4096] and the promotion logits
  [8192, 8, 24] to [8192, 192], and cuts the policy map [4288, 1858] into its first 4096 rows and its last 192
  rows, each band then narrowed to the 16-bit format (the identity on the extended reals).
-/
import proofs.«168001_j39608188404137_1_alg».proof.Proof.Gen.KernelIdeal.Frame
import Idealize.ShloMosaic.Lib.StableHlo.Run
import Idealize.ShloMosaic.Lib.ValueIdx

noncomputable section

namespace Cert.KernelIdeal.Entry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The first window's array: the move logits, each board's table as one row of 4096. -/
theorem moves_eq (c : Dev nD) :
    (V m c main_v0 : S8192x4096.Idx → EReal)
      = shapeCast S8192x4096 (m ((c.tc : Thread nD τ).loc main_arg0)) shapeCasts_S8192x64x64_S8192x4096 := by
  dsimp only [V, hostOps0]; after_results; rfl

/-- The second window's array: the promotion logits, each board's table as one row of 192. -/
theorem promos_eq (c : Dev nD) :
    (V m c main_v1 : S8192x192.Idx → EReal)
      = shapeCast S8192x192 (m ((c.tc : Thread nD τ).loc main_arg1)) shapeCasts_S8192x8x24_S8192x192 := by
  dsimp only [V, hostOps0]; after_results; rfl

/-- The third window's array: rows 0‥4095 of the policy map. -/
theorem bandA_eq (c : Dev nD) :
    (V m c main_v3 : S4096x1858.Idx → EReal)
      = extractStridedSlice S4096x1858 ![0, 0] (m ((c.tc : Thread nD τ).loc main_arg2)) slices_S4288x1858_S4096x1858_0_0 := by
  dsimp only [V, hostOps0]; after_results; rfl

/-- The fourth window's array: rows 4096‥4287 of the policy map. -/
theorem bandB_eq (c : Dev nD) :
    (V m c main_v5 : S192x1858.Idx → EReal)
      = extractStridedSlice S192x1858 ![4096, 0] (m ((c.tc : Thread nD τ).loc main_arg2)) slices_S4288x1858_S192x1858_4096_0 := by
  dsimp only [V, hostOps0]; after_results; rfl

end Cert.KernelIdeal.Entry

end
-- ==== Proof.KernelResult.lean ====
/-
  The kernel's result array as a function of the program's arguments: the policy output of the reshaped move
  logits, the reshaped promotion logits and the policy map.

  The region computes the banded policy output of the four arrays it finds; two of them are the reshaped logits
  and the other two are the map's rows 0‥4095 and 4096‥4287, so the banded form is the whole-map form.
-/
import proofs.«168001_j39608188404137_1_alg».proof.Proof.KernelValue
import proofs.«168001_j39608188404137_1_alg».proof.Proof.KernelEntry

noncomputable section

namespace Cert.KernelIdeal.PolicyValue

open Cert.KernelIdeal Cert.KernelIdeal.Gen Cert.PolicySum
open Idealize.ShloMosaic Idealize.ShloMosaic.TcCoe Idealize.SL.Sem

variable (m : (ℓ : Loc nD τ sig) → Buf (Elt Ideal) ℓ)

/-- After the run the result array is the policy output of the arguments. -/
theorem result_eq (c : Dev nD) :
    (dats m 0 c).arrAt 4 cfg0.N
      = policyOut (shapeCast S8192x4096 (m ((c.tc : Thread nD τ).loc main_arg0)) shapeCasts_S8192x64x64_S8192x4096)
          (shapeCast S8192x192 (m ((c.tc : Thread nD τ).loc main_arg1)) shapeCasts_S8192x8x24_S8192x192)
          (m ((c.tc : Thread nD τ).loc main_arg2)) := by
  rw [final, Cert.KernelIdeal.Entry.moves_eq, Cert.KernelIdeal.Entry.promos_eq, Cert.KernelIdeal.Entry.bandA_eq,
    Cert.KernelIdeal.Entry.bandB_eq]
  exact policyOutBands_slices _ _ _ _ _

end Cert.KernelIdeal.PolicyValue

end
-- ==== Proof.lean ====
/-
  The kernel maps each board's move logits (64 × 64) and promotion logits (8 × 24) to 1858 policy outputs through
  a fixed map W of 4288 rows: out[b, n] = Σ_{k < 4096} A[b, k] · W[k, n] + Σ_{k < 192} P[b, k] · W[4096 + k, n], where
  A[b, ·] and P[b, ·] are board b's two tables laid out as rows. The kernel forms the two sums separately, 256
  boards at a time, against the two row bands of W; the reference joins A[b, ·] and P[b, ·] into one row of 4288
  entries and contracts it against W once. Over the extended reals the two are the same function of the inputs:
  a sum over 4288 indices is the sum over the first 4096 plus the sum over the last 192, and the narrowing of the
  operands to the 16-bit format is the identity there. No finiteness of the inputs is needed.

  `Proof/PolicySum.lean` states that function and the split of the sum; `Proof/RefValue.lean` shows the reference
  computes it; `Proof/KernelPayload.lean`, `Proof/KernelEntry.lean`, `Proof/KernelValue.lean` and
  `Proof/KernelResult.lean` show the kernel does. The three programs' runs (termination, no fault, arguments
  unchanged) are the generated frames and the generated run of the reference; the idealization rewrote nothing.
-/
import proofs.«168001_j39608188404137_1_alg».proof.Defs
import proofs.«168001_j39608188404137_1_alg».proof.Proof.Gen.Kernel
import proofs.«168001_j39608188404137_1_alg».proof.Proof.Gen.Kernel.Skeleton
import proofs.«168001_j39608188404137_1_alg».proof.Proof.Gen.Kernel.Launch
import proofs.«168001_j39608188404137_1_alg».proof.Proof.Gen.Kernel.Points
import proofs.«168001_j39608188404137_1_alg».proof.Proof.Gen.Kernel.Frame
import proofs.«168001_j39608188404137_1_alg».proof.Proof.Gen.KernelIdeal
import proofs.«168001_j39608188404137_1_alg».proof.Proof.Gen.KernelIdeal.Skeleton
import proofs.«168001_j39608188404137_1_alg».proof.Proof.Gen.KernelIdeal.Launch
import proofs.«168001_j39608188404137_1_alg».proof.Proof.Gen.KernelIdeal.Points
import proofs.«168001_j39608188404137_1_alg».proof.Proof.Gen.KernelIdeal.Frame
import proofs.«168001_j39608188404137_1_alg».proof.Proof.Gen.ReferenceIdeal
import proofs.«168001_j39608188404137_1_alg».proof.Proof.Gen.Pre_finite_inputs
import proofs.«168001_j39608188404137_1_alg».proof.Proof.Gen.KernelIdeal.Value
import proofs.«168001_j39608188404137_1_alg».proof.Proof.Gen.ReferenceIdeal.Run
import proofs.«168001_j39608188404137_1_alg».proof.Proof.Gen.ReferenceIdeal.Read
import proofs.«168001_j39608188404137_1_alg».proof.Proof.RefValue
import proofs.«168001_j39608188404137_1_alg».proof.Proof.KernelResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the policy output of the (agreeing) arguments in their result arrays. -/
theorem algebraic : Cert.algebraic_KernelIdeal_ReferenceIdeal := by
  intro m ρ m' ρ' _ hagree
  refine ⟨fun c => Cert.PolicySum.policyOut
      (shapeCast Cert.KernelIdeal.S8192x4096 (m ((c.tc : Thread Cert.KernelIdeal.nD Cert.KernelIdeal.τ).loc Cert.KernelIdeal.main_arg0))
        Cert.KernelIdeal.Gen.shapeCasts_S8192x64x64_S8192x4096)
      (shapeCast Cert.KernelIdeal.S8192x192 (m ((c.tc : Thread Cert.KernelIdeal.nD Cert.KernelIdeal.τ).loc Cert.KernelIdeal.main_arg1))
        Cert.KernelIdeal.Gen.shapeCasts_S8192x8x24_S8192x192)
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.PolicyValue.result_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v3_eq, Cert.ReferenceIdeal.RefValue.result_eq,
      (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
